-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x768x8x2048 : Shape := ⟨4, ![8, 768, 8, 2048]⟩
abbrev S4x768 : Shape := ⟨2, ![4, 768]⟩
abbrev S_ : Shape := ⟨0, ![]⟩

class Facts : Prop where
  bcast_S_S8x768x8x2048 : S_.BroadcastsInDim S8x768x8x2048 (![] : Fin 0 → Fin S8x768x8x2048.rank)
  reducesTo_S8x768x8x2048_S_d0_1_2_3 : S8x768x8x2048.ReducesTo [0, 1, 2, 3] S_
  h_S_ : 0 < S_.numel
  bcast_S_S4x768 : S_.BroadcastsInDim S4x768 (![] : Fin 0 → Fin S4x768.rank)
  reducesTo_S4x768_S_d0_1 : S4x768.ReducesTo [0, 1] S_

variable [Facts]

def fn {F : FTy → Type} [FloatOps F] (main_arg0 : FVec F S8x768x8x2048 .f32) (main_arg1 : FVec F S4x768 .f32) : IVec S_ 1 :=
  let main_v0 : FVec F S8x768x8x2048 .f32 := Host.absf main_arg0
  let main_cst : FVec F S_ .f32 := constant S_ .f32 0x7F800000#32
  let main_v1 : FVec F S8x768x8x2048 .f32 := broadcastInDim S8x768x8x2048 ![] bcast_S_S8x768x8x2048 main_cst
  let main_v2 : IVec S8x768x8x2048 1 := cmpf .olt main_v0 main_v1
  let main_c : IVec S_ 1 := constantI S_ 1 1#1
  let main_v3 : IVec S_ 1 := (fun x v => Host.reduce IntOp.andi x v reducesTo_S8x768x8x2048_S_d0_1_2_3 h_S_) main_v2 main_c
  let main_v4 : FVec F S4x768 .f32 := Host.absf main_arg1
  let main_cst_0 : FVec F S_ .f32 := constant S_ .f32 0x7F800000#32
  let main_v5 : FVec F S4x768 .f32 := broadcastInDim S4x768 ![] bcast_S_S4x768 main_cst_0
  let main_v6 : IVec S4x768 1 := cmpf .olt main_v4 main_v5
  let main_c_1 : IVec S_ 1 := constantI S_ 1 1#1
  let main_v7 : IVec S_ 1 := (fun x v => Host.reduce IntOp.andi x v reducesTo_S4x768_S_d0_1 h_S_) main_v6 main_c_1
  let main_v8 : IVec S_ 1 := andi main_v3 main_v7
  main_v8
-- ==== Kernel.lean ====
abbrev S8x768x8x2048 : Shape := ⟨4, ![8, 768, 8, 2048]⟩
abbrev S4x768 : Shape := ⟨2, ![4, 768]⟩
abbrev S1x128x8x512 : Shape := ⟨4, ![1, 128, 8, 512]⟩
abbrev S4x128 : Shape := ⟨2, ![4, 128]⟩
abbrev S8x512 : Shape := ⟨2, ![8, 512]⟩
abbrev S128x8x512 : Shape := ⟨3, ![128, 8, 512]⟩
abbrev S1x128 : Shape := ⟨2, ![1, 128]⟩
abbrev S128 : Shape := ⟨1, ![128]⟩
abbrev S128x1x1 : Shape := ⟨3, ![128, 1, 1]⟩
abbrev S1x8x512 : Shape := ⟨3, ![1, 8, 512]⟩

abbrev nBuf : Space → Nat
  | .hbm => 3
  | .vmem => 6
  | .smem => 0
  | _ => 0

abbrev bufTy : (tb : Table) → Fin (tcTables nBuf tb) → BufTy
  | .hbm, ⟨0, _⟩ => ⟨S8x768x8x2048, .f32⟩
  | .hbm, ⟨1, _⟩ => ⟨S4x768, .f32⟩
  | .hbm, ⟨2, _⟩ => ⟨S8x768x8x2048, .f32⟩
  | .local _ .vmem, ⟨0, _⟩ => ⟨S1x128x8x512, .f32⟩
  | .local _ .vmem, ⟨1, _⟩ => ⟨S1x128x8x512, .f32⟩
  | .local _ .vmem, ⟨2, _⟩ => ⟨S4x128, .f32⟩
  | .local _ .vmem, ⟨3, _⟩ => ⟨S4x128, .f32⟩
  | .local _ .vmem, ⟨4, _⟩ => ⟨S1x128x8x512, .f32⟩
  | .local _ .vmem, ⟨5, _⟩ => ⟨S1x128x8x512, .f32⟩
  | _, _ => ⟨S8x768x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x128x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x128x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  iota_S8x512_d0_w32 : S8x512.Iotas .tc 32 [0]
  iota_S8x512_d1_w32 : S8x512.Iotas .tc 32 [1]
  natLt_1_32 : 1 < 32
  inb_S4x128_S1x128_0_0 : ∀ a, (![0, 0] : Fin 2 → Nat) a + S1x128.size a ≤ S4x128.size a
  h_S1x128 : 0 < S1x128.numel
  shapeCasts_S1x128_S128 : S1x128.ShapeCasts S128
  shapeCasts_S128_S128x1x1 : S128.ShapeCasts S128x1x1
  shapeCasts_S8x512_S1x8x512 : S8x512.ShapeCasts S1x8x512
  broadcasts_S128x1x1_S128x8x512 : S128x1x1.Broadcasts S128x8x512
  broadcasts_S1x8x512_S128x8x512 : S1x8x512.Broadcasts S128x8x512
  inb_S4x128_S1x128_1_0 : ∀ a, (![1, 0] : Fin 2 → Nat) a + S1x128.size a ≤ S4x128.size a
  inb_S4x128_S1x128_2_0 : ∀ a, (![2, 0] : Fin 2 → Nat) a + S1x128.size a ≤ S4x128.size a
  inb_S4x128_S1x128_3_0 : ∀ a, (![3, 0] : Fin 2 → Nat) a + S1x128.size a ≤ S4x128.size a
  inb_S1x128x8x512_S1x128x8x512_0_0_0_0 : ∀ a, (![0, 0, 0, 0] : Fin 4 → Nat) a + S1x128x8x512.size a ≤ S1x128x8x512.size a
  h_S1x128x8x512 : 0 < S1x128x8x512.numel
  shapeCasts_S128x8x512_S1x128x8x512 : S128x8x512.ShapeCasts S1x128x8x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x8x512.size a ≤ S8x768x8x2048.size a
  hwx0_0 : ∀ i : grid0.Coords, EltTy.bits .f32 = 32 ∨ (Rect.block (s := S8x768x8x2048) S1x128x8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x768.size a
  hwx0_1 : ∀ i : grid0.Coords, EltTy.bits .f32 = 32 ∨ (Rect.block (s := S4x768) S4x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x8x512.size a ≤ S8x768x8x2048.size a
  hwx0_2 : ∀ i : grid0.Coords, EltTy.bits .f32 = 32 ∨ (Rect.block (s := S8x768x8x2048) S1x128x8x512.size (cc0_transform_2 i) (hinb0_2 i)).WholeWords (EltTy.packing .f32)

variable [Facts₀]

abbrev win0_0 : Pipeline.Window sig grid0 :=
  Pipeline.Window.ofSpec (Memref.whole main_arg0) S1x128x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x768x8x2048 : Shape := ⟨4, ![8, 768, 8, 2048]⟩
abbrev S4x768 : Shape := ⟨2, ![4, 768]⟩
abbrev S8 : Shape := ⟨1, ![8]⟩
abbrev S8x1 : Shape := ⟨2, ![8, 1]⟩
abbrev S2048 : Shape := ⟨1, ![2048]⟩
abbrev S1x2048 : Shape := ⟨2, ![1, 2048]⟩
abbrev S8x2048 : Shape := ⟨2, ![8, 2048]⟩
abbrev S_ : Shape := ⟨0, ![]⟩
abbrev S8x2048x1 : Shape := ⟨3, ![8, 2048, 1]⟩
abbrev S8x2048x768 : Shape := ⟨3, ![8, 2048, 768]⟩
abbrev S768x8x2048 : Shape := ⟨3, ![768, 8, 2048]⟩
abbrev S1x768x8x2048 : Shape := ⟨4, ![1, 768, 8, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8x768x8x2048, .f32⟩
  | .hbm, ⟨1, _⟩ => ⟨S4x768, .f32⟩
  | .hbm, ⟨2, _⟩ => ⟨S8, .i32⟩
  | .hbm, ⟨3, _⟩ => ⟨S8x1, .i32⟩
  | .hbm, ⟨4, _⟩ => ⟨S2048, .i32⟩
  | .hbm, ⟨5, _⟩ => ⟨S1x2048, .i32⟩
  | .hbm, ⟨6, _⟩ => ⟨S8x2048, .i32⟩
  | .hbm, ⟨7, _⟩ => ⟨S8x2048, .i32⟩
  | .hbm, ⟨8, _⟩ => ⟨S8x2048, .i32⟩
  | .hbm, ⟨9, _⟩ => ⟨S_, .i32⟩
  | .hbm, ⟨10, _⟩ => ⟨S8x1, .i32⟩
  | .hbm, ⟨11, _⟩ => ⟨S8x1, .i32⟩
  | .hbm, ⟨12, _⟩ => ⟨S_, .i32⟩
  | .hbm, ⟨13, _⟩ => ⟨S1x2048, .i32⟩
  | .hbm, ⟨14, _⟩ => ⟨S1x2048, .i32⟩
  | .hbm, ⟨15, _⟩ => ⟨S8x2048, .i32⟩
  | .hbm, ⟨16, _⟩ => ⟨S8x2048, .i32⟩
  | .hbm, ⟨17, _⟩ => ⟨S8x2048, .i32⟩
  | .hbm, ⟨18, _⟩ => ⟨S8x2048, .i32⟩
  | .hbm, ⟨19, _⟩ => ⟨S_, .i32⟩
  | .hbm, ⟨20, _⟩ => ⟨S8x2048, .i32⟩
  | .hbm, ⟨21, _⟩ => ⟨S8x2048, .i1⟩
  | .hbm, ⟨22, _⟩ => ⟨S_, .i32⟩
  | .hbm, ⟨23, _⟩ => ⟨S8x2048, .i32⟩
  | .hbm, ⟨24, _⟩ => ⟨S8x2048, .i32⟩
  | .hbm, ⟨25, _⟩ => ⟨S8x2048, .i32⟩
  | .hbm, ⟨26, _⟩ => ⟨S8x2048x1, .i32⟩
  | .hbm, ⟨27, _⟩ => ⟨S8x2048x768, .f32⟩
  | .hbm, ⟨28, _⟩ => ⟨S768x8x2048, .f32⟩
  | .hbm, ⟨29, _⟩ => ⟨S1x768x8x2048, .f32⟩
  | .hbm, ⟨30, _⟩ => ⟨S8x768x8x2048, .f32⟩
  | .hbm, ⟨31, _⟩ => ⟨S8x768x8x2048, .f32⟩
  | _, _ => ⟨S8x768x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_1 : Ref sig .tc := ⟨.hbm, 19, rfl⟩
abbrev main_v15 : Ref sig .tc := ⟨.hbm, 20, rfl⟩
abbrev main_v16 : Ref sig .tc := ⟨.hbm, 21, rfl⟩
abbrev main_c_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]

class Facts₀ : Prop where
  bcast_S8_S8x1_0 : S8.BroadcastsInDim S8x1 (![0] : Fin 1 → Fin S8x1.rank)
  bcast_S2048_S1x2048_1 : S2048.BroadcastsInDim S1x2048 (![1] : Fin 1 → Fin S1x2048.rank)
  bcast_S8x1_S8x2048_0_1 : S8x1.BroadcastsInDim S8x2048 (![0, 1] : Fin 2 → Fin S8x2048.rank)
  bcast_S1x2048_S8x2048_0_1 : S1x2048.BroadcastsInDim S8x2048 (![0, 1] : Fin 2 → Fin S8x2048.rank)
  bcast_S_S8x1 : S_.BroadcastsInDim S8x1 (![] : Fin 0 → Fin S8x1.rank)
  bcast_S_S1x2048 : S_.BroadcastsInDim S1x2048 (![] : Fin 0 → Fin S1x2048.rank)
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  transposes_S8x2048x768_S768x8x2048_2_0_1 : S8x2048x768.Transposes [2, 0, 1] S768x8x2048
  bcast_S768x8x2048_S1x768x8x2048_1_2_3 : S768x8x2048.BroadcastsInDim S1x768x8x2048 (![1, 2, 3] : Fin 3 → Fin S1x768x8x2048.rank)
  bcast_S1x768x8x2048_S8x768x8x2048_0_1_2_3 : S1x768x8x2048.BroadcastsInDim S8x768x8x2048 (![0, 1, 2, 3] : Fin 4 → Fin S8x768x8x2048.rank)
  gather_S4x768_S8x2048x1_S8x2048x768_2_0_n_n_0_2_1768_wf : GatherDims.WF S4x768 S8x2048x1 S8x2048x768 [2] [0] [] [0] [] 2 ![1, 768]

variable [Facts₀]

def gather_S4x768_S8x2048x1_S8x2048x768_2_0_n_n_0_2_1768 : GatherDims S4x768 S8x2048x1 S8x2048x768 where
  offsetDims := [2]
  collapsedSliceDims := [0]
  operandBatchingDims := []
  startIndicesBatchingDims := []
  startIndexMap := [0]
  indexVectorDim := 2
  sliceSizes := ![1, 768]
  wf := gather_S4x768_S8x2048x1_S8x2048x768_2_0_n_n_0_2_1768_wf

class Facts : Prop extends Facts₀ where

variable [Facts]
-- ==== Proof.EdgeDistance.lean ====
/-
  The mathematics shared by both programs, with no program imported.

  A pixel (i, j) of an 8 × 2048 image lies at distance
      edgeDist i j = min (min i j) (min (7 - i) (2047 - j))
  from the nearest edge of the image; since min i (7 - i) ≤ 3, that distance is one of 0, 1, 2, 3.
  Both programs add to x[b, c, i, j] the entry of row edgeDist i j, column c, of a 4 × 768 table.
  One of them computes the distance on 32-bit words and reads the table row at it; the other forms the four
  0/1 masks [edgeDist = k] and adds the four products row k · mask k to a zero accumulator.  On the extended reals
  a product with 0 is 0 and a product with 1 is the factor itself, whatever the factor is, so that sum has
  exactly one surviving term: the row at the distance.
-/
import Idealize.ShloMosaic.PureOps.Ideal
import Idealize.ShloMosaic.Lib.ValueIdx
import Idealize.ShloMosaic.Lib.StableHlo.Predicate

noncomputable section

namespace Cert.EdgeDistance

open Idealize.ShloMosaic Idealize.ShloMosaic.ValueIdx

/-! ## The distance to the nearest edge -/

/-- The distance of pixel (i, j) of an 8 × 2048 image to the nearest edge. -/
def edgeDist (i j : ℕ) : ℕ := min (min i j) (min (7 - i) (2047 - j))

/-- A row index below 8 is at distance at most 3 from the top or the bottom edge. -/
theorem dist_lt (i j : ℕ) (hi : i < 8) : edgeDist i j < 4 := by unfold edgeDist; omega

/-! ## The same distance on 32-bit words -/

/-- The signed minimum of two small words is the word of the minimum. -/
theorem minsi_ofNat (a b : ℕ) (ha : a < 2 ^ 31) (hb : b < 2 ^ 31) :
    IntOp.minsi (BitVec.ofNat 32 a) (BitVec.ofNat 32 b) = BitVec.ofNat 32 (min a b) := by
  unfold IntOp.minsi
  by_cases h : a < b
  · rw [if_pos ((StableHlo.Predicate.ofBool_eq_one_iff _).mp ((StableHlo.Predicate.slt_ofNat_iff a b ha hb).mpr h)),
      Nat.min_eq_left h.le]
  · rw [if_neg (fun hs => h ((StableHlo.Predicate.slt_ofNat_iff a b ha hb).mp ((StableHlo.Predicate.ofBool_eq_one_iff _).mpr hs))),
      Nat.min_eq_right (Nat.le_of_not_lt h)]

/-- A difference of words that does not go below zero is the word of the difference. -/
theorem sub_ofNat (a b : ℕ) (hb : b ≤ a) (ha : a < 2 ^ 32) :
    BitVec.ofNat 32 a - BitVec.ofNat 32 b = BitVec.ofNat 32 (a - b) := by
  apply BitVec.eq_of_toNat_eq
  simp only [BitVec.toNat_sub, BitVec.toNat_ofNat]
  omega

/-- The distance as both programs spell it on words: min (min I J) (min (7 - I) (2047 - J)), signed. -/
def distWord (I J : BitVec 32) : BitVec 32 :=
  IntOp.minsi (IntOp.minsi I J) (IntOp.minsi (IntOp.subi 7#32 I) (IntOp.subi 2047#32 J))

/-- At the words of a row index below 8 and a column index below 2048 it is the word of the distance. -/
theorem distWord_ofNat (i j : ℕ) (hi : i < 8) (hj : j < 2048) :
    distWord (BitVec.ofNat 32 i) (BitVec.ofNat 32 j) = BitVec.ofNat 32 (edgeDist i j) := by
  unfold distWord edgeDist IntOp.subi
  rw [show (7#32 : BitVec 32) = BitVec.ofNat 32 7 from rfl, show (2047#32 : BitVec 32) = BitVec.ofNat 32 2047 from rfl,
    sub_ofNat 7 i (by omega) (by omega), sub_ofNat 2047 j (by omega) (by omega),
    minsi_ofNat i j (by omega) (by omega), minsi_ofNat (7 - i) (2047 - j) (by omega) (by omega),
    minsi_ofNat (min i j) (min (7 - i) (2047 - j)) (by omega) (by omega)]

/-! ## A mask, and the masked sum -/

/-- The 0/1 mask [d = k], as the kernel makes it: the comparison's bit, widened to a word, read as a signed integer. -/
theorem mask_eq (d k : ℕ) (hd : d < 2 ^ 32) (hk : k < 2 ^ 32) :
    (FloatOps.sitofp (F := Ideal) .f32 ((IntOp.cmpi .eq (BitVec.ofNat 32 d) (BitVec.ofNat 32 k)).setWidth 32) : EReal)
      = if d = k then 1 else 0 := by
  by_cases h : d = k
  · subst h
    rw [if_pos rfl]
    have e : IntOp.cmpi .eq (BitVec.ofNat 32 d) (BitVec.ofNat 32 d) = 1#1 := StableHlo.Predicate.cmpi_eq_iff.mpr rfl
    rw [e]
    show (((1#1 : BitVec 1).setWidth 32).toInt : ℝ) = (1 : EReal)
    rw [show ((1#1 : BitVec 1).setWidth 32).toInt = 1 from by decide]
    simp
  · rw [if_neg h]
    have e : IntOp.cmpi .eq (BitVec.ofNat 32 d) (BitVec.ofNat 32 k) = 0#1 := by
      apply eq_zero_of_ne_one
      intro h1
      have := StableHlo.Predicate.cmpi_eq_iff.mp h1
      have h2 := congrArg BitVec.toNat this
      simp only [BitVec.toNat_ofNat] at h2
      omega
    rw [e]
    show (((0#1 : BitVec 1).setWidth 32).toInt : ℝ) = (0 : EReal)
    rw [show ((0#1 : BitVec 1).setWidth 32).toInt = 0 from by decide]
    simp

/-- Four rows weighted by the masks [d = 0], …, [d = 3] and added to a zero accumulator leave row d:
    every other product is a product with 0, which is 0 on the extended reals whatever the row's entry is. -/
theorem masked_sum (x : EReal) (r : Fin 4 → EReal) (d : ℕ) (hd : d < 4) :
    x + ((((0 + r 0 * (if d = 0 then 1 else 0)) + r 1 * (if d = 1 then 1 else 0)) + r 2 * (if d = 2 then 1 else 0))
        + r 3 * (if d = 3 then 1 else 0))
      = x + r ⟨d, hd⟩ := by
  interval_cases d <;> simp <;> rfl

/-! ## What both programs compute -/

abbrev SX : Shape := ⟨4, ![8, 768, 8, 2048]⟩
abbrev ST : Shape := ⟨2, ![4, 768]⟩

/-- x[b, c, i, j] plus the table's entry at row edgeDist i j and column c. -/
def G (x : SX.Idx → EReal) (tbl : ST.Idx → EReal) : SX.Idx → EReal :=
  fun y => x y + tbl (ix2 ⟨edgeDist (y 2).val (y 3).val, dist_lt _ _ (y 2).isLt⟩ (y 1))

end Cert.EdgeDistance

end
-- ==== Proof.LibChannelImage.lean ====
/-
  A per-channel vector and a per-pixel image laid out over a [channels, rows, columns] block, read at an index.

  A vector of a entries viewed as the [a, 1, 1] column of channels and broadcast to [a, b, c] is constant over each
  channel's b × c image; a b × c image viewed as [1, b, c] and broadcast to [a, b, c] is the same image on every
  channel.  Generic in the sizes.
-/
import Idealize.ShloMosaic.Lib.ValueIdx
import Idealize.ShloMosaic.Lib.Pipeline.Value

noncomputable section

namespace Cert.LibChannelImage

open Idealize.ShloMosaic Idealize.ShloMosaic.ValueIdx

variable {α : Type}

/-- An [a] vector cast to [a, 1, 1] reads, at (i, u, v), the vector at i: both have row-major position i. -/
theorem shapeCast_a_a11_apply {a : ℕ} (x : (⟨1, ![a]⟩ : Shape).Idx → α)
    (h : (⟨1, ![a]⟩ : Shape).ShapeCasts ⟨3, ![a, 1, 1]⟩) (i : Fin a) (u v : Fin 1) :
    shapeCast ⟨3, ![a, 1, 1]⟩ x h (ix3 i u v) = x (ix1 i) :=
  shapeCast_apply x h _ _ (by
    have hu : u.val = 0 := by omega
    have hv : v.val = 0 := by omega
    rw [Shape.rowMajor_val_three, Shape.rowMajor_val_one]
    show i.val = (i.val * 1 + u.val) * 1 + v.val
    rw [hu, hv]; omega)

/-- An [a, 1, 1] column of channels broadcast to [a, b, c] reads, at (i, p, q), the column at channel i. -/
theorem broadcastTo_a11_abc_apply {a b c : ℕ} (x : (⟨3, ![a, 1, 1]⟩ : Shape).Idx → α)
    (h : (⟨3, ![a, 1, 1]⟩ : Shape).Broadcasts ⟨3, ![a, b, c]⟩) (i : Fin a) (p : Fin b) (q : Fin c) :
    broadcastTo ⟨3, ![a, b, c]⟩ x h (ix3 i p q) = x (ix3 i (0 : Fin 1) (0 : Fin 1)) := by
  refine broadcastTo_apply x h (ix3 i p q) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- A [1, b, c] image broadcast to [a, b, c] reads, at (i, p, q), the image at (p, q), on every channel i. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (p : Fin b) (q : Fin c) :
    broadcastTo ⟨3, ![a, b, c]⟩ x h (ix3 i p q) = x (ix3 (0 : Fin 1) p q) := by
  refine broadcastTo_apply x h (ix3 i p q) (ix3 (0 : Fin 1) p q) fun ax => ?_
  match ax with
  | ⟨0, _⟩ => rfl
  | ⟨1, _⟩ =>
    show p.val = if b = 1 then 0 else p.val
    split
    · have := p.isLt; omega
    · rfl
  | ⟨2, _⟩ =>
    show q.val = if c = 1 then 0 else q.val
    split
    · have := q.isLt; omega
    · rfl

end Cert.LibChannelImage

end
-- ==== Proof.KernelPayload.lean ====
/-
  The kernel body's arithmetic, read at an index of the block it stores.

  At grid point (b, cb, wb) the body sees a 1 × 128 × 8 × 512 block of x and a 4 × 128 block of the table.  For the
  pixel (h, l) of the block, whose column in the image is l + 512 · wb, it forms the distance word of EdgeDistance,
  the four masks [distance = k], and stores  x + ((((0 + row 0 · mask 0) + row 1 · mask 1) + row 2 · mask 2) + row 3 · mask 3),
  row k being the table block's row k laid over the channels and mask k the 8 × 512 image laid over every channel.
-/
import proofs.«113781_j45724221833316_1_alg».proof.Proof.Gen.KernelIdeal.Skeleton
import proofs.«113781_j45724221833316_1_alg».proof.Proof.EdgeDistance
import proofs.«113781_j45724221833316_1_alg».proof.Proof.LibChannelImage
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx
open Cert.EdgeDistance Cert.LibChannelImage

/-! ## The distance words -/

/-- A column offset of whole blocks added to a column inside the block, on words. -/
theorem col_word (l w : ℕ) :
    IntOp.addi (BitVec.ofNat 32 l) (IntOp.muli (BitVec.ofNat 32 w) 512#32) = BitVec.ofNat 32 (l + w * 512) := by
  unfold IntOp.addi IntOp.muli
  rw [show (512#32 : BitVec 32) = BitVec.ofNat 32 512 from rfl, ← BitVec.ofNat_mul, ← BitVec.ofNat_add]

/-- At pixel (h, l) of the block at column block `i 2`, the body's distance vector holds the word of the distance of
    the image's pixel (h, l + 512 · i 2) to the nearest edge. -/
theorem dist_words (i : grid0.Coords) (h : Fin 8) (l : Fin 512) :
    k0_pay2 i (ix2 h l) = BitVec.ofNat 32 (edgeDist h.val (l.val + (i 2).val * 512)) := by
  have hw : (i 2).val < 4 := (i 2).isLt
  have e0 : iota .tc S8x512 32 [0] iota_S8x512_d0_w32 (ix2 h l) = BitVec.ofNat 32 h.val :=
    iota_single_apply .tc S8x512 32 0 iota_S8x512_d0_w32 (ix2 h l)
  have e1 : iota .tc S8x512 32 [1] iota_S8x512_d1_w32 (ix2 h l) = BitVec.ofNat 32 l.val :=
    iota_single_apply .tc S8x512 32 1 iota_S8x512_d1_w32 (ix2 h l)
  unfold k0_pay2
  simp only [minsi, subi, addi, broadcast, Scalar.muli]
  rw [e0, e1, col_word]
  exact distWord_ofNat h.val (l.val + (i 2).val * 512) h.isLt (by have := l.isLt; omega)

/-! ## A mask and a masked term at an index -/

/-- The mask [distance = k] at a pixel whose distance word is the word of d. -/
theorem mask_apply (D : IVec S8x512 32) (k d : ℕ) (hk : k < 2 ^ 32) (hd : d < 2 ^ 32) (h : Fin 8) (l : Fin 512)
    (hD : D (ix2 h l) = BitVec.ofNat 32 d) :
    (sitofp (F := Ideal) .f32 (extui 32 (cmpi .eq D (broadcast S8x512 (BitVec.ofNat 32 k))) natLt_1_32) (ix2 h l) : EReal)
      = if d = k then 1 else 0 := by
  show (FloatOps.sitofp (F := Ideal) .f32 ((IntOp.cmpi .eq (D (ix2 h l)) (BitVec.ofNat 32 k)).setWidth 32) : EReal) = _
  rw [hD]
  exact mask_eq d k hd hk

/-- One masked term at (c, h, l): the table block's row entry for channel c times the mask at pixel (h, l). -/
theorem term_apply (row : Vec Ideal S1x128 .f32) (msk : FVec Ideal S8x512 .f32) (c : Fin 128) (h : Fin 8) (l : Fin 512) :
    (mulf (broadcastTo S128x8x512 (shapeCast S128x1x1 (shapeCast S128 row shapeCasts_S1x128_S128) shapeCasts_S128_S128x1x1)
        broadcasts_S128x1x1_S128x8x512)
      (broadcastTo S128x8x512 (shapeCast S1x8x512 msk shapeCasts_S8x512_S1x8x512) broadcasts_S1x8x512_S128x8x512)
      (ix3 c h l) : EReal)
      = row (ix2 (0 : Fin 1) c) * msk (ix2 h l) := by
  rw [mulf_apply, broadcastTo_a11_abc_apply, shapeCast_a_a11_apply, shapeCast_1a_a_apply,
    broadcastTo_1bc_abc_apply, shapeCast_ab_1ab_apply]

end Cert.KernelIdeal.Payload

end
-- ==== Proof.KernelValue.lean ====
/-
  The kernel's result array is the function G of EdgeDistance.

  The grid has 8 × 6 × 4 points (batch, channel block, column block).  At point (b, cb, wb) the kernel reads block
  (b, cb, 0, wb) of x (1 × 128 × 8 × 512) and block (0, cb) of the table (4 × 128), and writes block (b, cb, 0, wb) of
  the result.  An index (b, c, i, j) of the result lies in exactly the block (b, c / 128, 0, j / 512), at the place
  (0, c mod 128, i, j mod 512) of it; the column of that pixel in the image is (j mod 512) + 512 · (j / 512) = j, so the
  distance the body computes there is edgeDist i j, and the table entry it adds is the one of row edgeDist i j and column c.
-/
import proofs.«113781_j45724221833316_1_alg».proof.Proof.ValueKernelIdeal
import proofs.«113781_j45724221833316_1_alg».proof.Proof.KernelPayload
import proofs.«113781_j45724221833316_1_alg».proof.Proof.EdgeDistance
import Idealize.ShloMosaic.PureOps.Ideal.Laws

set_option maxRecDepth 16384

noncomputable section

namespace Cert.KernelIdeal.Blocks

open Cert.KernelIdeal Cert.KernelIdeal.Gen Cert.KernelIdeal.GenP Cert.KernelIdeal.ValueP Cert.KernelIdeal.Payload
open Idealize.ShloMosaic Idealize.ShloMosaic.TcCoe Idealize.SL.Sem Idealize.ShloMosaic.ValueIdx
open Idealize.ShloMosaic.Pipeline (Dat)
open Cert.EdgeDistance

/-! ## The body's stored block at an index -/

theorem zero_offsets4 : (![0, 0, 0, 0] : Fin 4 → Nat) = fun _ => 0 := funext fun a => by fin_cases a <;> rfl

/-- Row k of the 4 × 128 table block, loaded as a 1 × 128 vector, holds at (0, c) the block's entry (k, c). -/
theorem row_load (x1 : Vec Ideal S4x128 .f32) (k : ℕ) (hk : k < 4) (inb : ∀ a, (![k, 0] : Fin 2 → Nat) a + S1x128.size a ≤ S4x128.size a)
    (c : Fin 128) :
    View.ld x1 (Rect.unit (s := S4x128) ![k, 0] S1x128.size inb) (ix2 (0 : Fin 1) c) = x1 (ix2 (⟨k, hk⟩ : Fin 4) c) := by
  show x1 ((Rect.unit (s := S4x128) ![k, 0] S1x128.size inb).emb (ix2 (0 : Fin 1) c)) = x1 (ix2 (⟨k, hk⟩ : Fin 4) c)
  refine congrArg x1 (funext fun a => Fin.ext ?_)
  match a with
  | ⟨0, _⟩ => show k + 1 * 0 = k; omega
  | ⟨1, _⟩ => show 0 + 1 * c.val = c.val; omega

/-- The third mask, [distance = 2], at pixel (h, l) of the block at column block `i 2`. -/
theorem pay4_apply (i : grid0.Coords) (h : Fin 8) (l : Fin 512) :
    (k0_pay4 (F := Ideal) i (ix2 h l) : EReal) = if edgeDist h.val (l.val + (i 2).val * 512) = 2 then 1 else 0 := by
  unfold k0_pay4
  exact mask_apply (k0_pay2 i) 2 _ (by norm_num) (by have := dist_lt h.val (l.val + (i 2).val * 512) h.isLt; omega) h l
    (dist_words i h l)

/-- The accumulator after the first two masked terms, at (c, h, l). -/
theorem pay3_apply (i : grid0.Coords) (v17 v29 : Vec Ideal S1x128 .f32) (c : Fin 128) (h : Fin 8) (l : Fin 512) :
    (k0_pay3 (F := Ideal) i v17 v29 (ix3 c h l) : EReal)
      = (0 + v17 (ix2 (0 : Fin 1) c) * (if edgeDist h.val (l.val + (i 2).val * 512) = 0 then 1 else 0))
        + v29 (ix2 (0 : Fin 1) c) * (if edgeDist h.val (l.val + (i 2).val * 512) = 1 then 1 else 0) := by
  have hd : edgeDist h.val (l.val + (i 2).val * 512) < 2 ^ 32 := by
    have := dist_lt h.val (l.val + (i 2).val * 512) h.isLt; omega
  unfold k0_pay3
  dsimp only
  rw [addf_apply, addf_apply, term_apply, term_apply,
    mask_apply (k0_pay2 i) 0 _ (by norm_num) hd h l (dist_words i h l),
    mask_apply (k0_pay2 i) 1 _ (by norm_num) hd h l (dist_words i h l), broadcast_apply]
  congr 2
  exact Ideal.ofBits_zero_f32

/-- What the body stores, at (u, c, h, l) of its block: x plus the four masked terms added to a zero accumulator. -/
theorem pay1_apply (i : grid0.Coords) (v36 : FVec Ideal S128x8x512 .f32) (v40 : FVec Ideal S8x512 .f32)
    (v41 v53 : Vec Ideal S1x128 .f32) (v61 : Vec Ideal S1x128x8x512 .f32)
    (u : Fin 1) (c : Fin 128) (h : Fin 8) (l : Fin 512) :
    (k0_pay1 (F := Ideal) (k0_pay2 i) v36 v40 (k0_pay5 v41) v53 v61 (ix4 u c h l) : EReal)
      = v61 (ix4 u c h l) + ((v36 (ix3 c h l) + v41 (ix2 (0 : Fin 1) c) * v40 (ix2 h l))
          + v53 (ix2 (0 : Fin 1) c) * (if edgeDist h.val (l.val + (i 2).val * 512) = 3 then 1 else 0)) := by
  have hd : edgeDist h.val (l.val + (i 2).val * 512) < 2 ^ 32 := by
    have := dist_lt h.val (l.val + (i 2).val * 512) h.isLt; omega
  unfold k0_pay1 k0_pay5
  dsimp only
  rw [addf_apply, shapeCast_abc_1abc_apply, addf_apply, addf_apply, term_apply, term_apply,
    mask_apply (k0_pay2 i) 3 _ (by norm_num) hd h l (dist_words i h l)]

/-- THE STORED BLOCK AT AN INDEX: x's block entry plus the table block's entry at the row of the pixel's distance to the
    nearest edge and the channel's column. -/
theorem out_apply (i : grid0.Coords) (x0 : Vec Ideal S1x128x8x512 .f32) (x1 : Vec Ideal S4x128 .f32)
    (u : Fin 1) (c : Fin 128) (h : Fin 8) (l : Fin 512) :
    (out0_2 (F := Ideal) i x0 x1 (ix4 u c h l) : EReal)
      = x0 (ix4 u c h l)
        + x1 (ix2 ⟨edgeDist h.val (l.val + (i 2).val * 512), dist_lt _ _ h.isLt⟩ c) := by
  unfold out0_2
  rw [View.canon_unit_zero zero_offsets4]
  simp only [View.ld_unit_zero (S := S1x128x8x512) zero_offsets4]
  rw [pay1_apply, pay3_apply, pay4_apply,
    row_load x1 0 (by norm_num) inb_S4x128_S1x128_0_0 c, row_load x1 1 (by norm_num) inb_S4x128_S1x128_1_0 c,
    row_load x1 2 (by norm_num) inb_S4x128_S1x128_2_0 c, row_load x1 3 (by norm_num) inb_S4x128_S1x128_3_0 c]
  exact masked_sum (x0 (ix4 u c h l)) (fun k => x1 (ix2 k c)) _ (dist_lt _ _ h.isLt)

/-! ## From the blocks to the array -/

variable (m : (ℓ : Loc nD τ sig) → Buf (Elt Ideal) ℓ) (ρ : Dev nD → PrngReg)

/-- The array x as the region finds it, at its literal type. -/
abbrev xarr (c : Dev nD) : S8x768x8x2048.Idx → EReal := V m c main_arg0
/-- The table as the region finds it, at its literal type. -/
abbrev tarr (c : Dev nD) : S4x768.Idx → EReal := V m c main_arg1

/-- The printed index maps, decided over the 192 grid points: x's block moves with the result's; the table's block is
    the result's channel block; the result's block index is (b, cb, 0, wb) with wb the point's column block. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = win0_2.index t (2 : Fin 4) ∧ win0_0.index t (3 : Fin 4) = win0_2.index t (3 : Fin 4)
    ∧ win0_1.index t (0 : Fin 2) = 0 ∧ win0_1.index t (1 : Fin 2) = win0_2.index t (1 : Fin 4)
    ∧ win0_2.index t (2 : Fin 4) = 0 ∧ win0_2.index t (3 : Fin 4) = (grid0.coords t 2).val
    ∧ win0_2.index t (0 : Fin 4) ≤ 7 ∧ win0_2.index t (1 : Fin 4) ≤ 5 ∧ win0_2.index t (3 : Fin 4) ≤ 3 :=
  (by decide +kernel : ∀ t : Fin grid0.N, _)

/-- Every block index (b, cb, 0, wb) is some point's. -/
theorem idx_onto : ∀ (q0 : Fin 8) (q1 : Fin 6) (q3 : Fin 4), ∃ t : Fin cfg0.N, win0_2.index t = ![q0.val, q1.val, 0, q3.val] :=
  (by decide +kernel : ∀ (q0 : Fin 8) (q1 : Fin 6) (q3 : Fin 4), ∃ t : Fin grid0.N, win0_2.index t = ![q0.val, q1.val, 0, q3.val])

/-- WHAT POINT t WRITES BACK is block t of G of the argument arrays. -/
theorem flushed_eq (c : Dev nD) (t : Fin cfg0.N) :
    (dats m 0 c).flushed 2 t
      = ((cfg0.win 2).blk t).view.read (Elt Ideal) (G (xarr m c) (tarr m c)) := by
  rw [flushed2]
  obtain ⟨e0, e1, e2, e3, e4, e5, e6, e7, b0, b1, b3⟩ := idx_facts t
  funext j
  obtain ⟨u, cc, h, l, rfl⟩ : ∃ (u : Fin 1) (cc : Fin 128) (h : Fin 8) (l : Fin 512), j = ix4 u cc h l :=
    ⟨j 0, j 1, j 2, j 3, eq_ix4 j⟩
  refine (out_apply (grid0.coords t) (iblk m c 0 t) (iblk m c 1 t) u cc h l).trans ?_
  show xarr m c (((cfg0.win 0).blk t).view.emb (ix4 u cc h l))
      + tarr m c (((cfg0.win 1).blk t).view.emb
          (ix2 ⟨edgeDist h.val (l.val + (grid0.coords t 2).val * 512), dist_lt _ _ h.isLt⟩ cc))
    = xarr m c (((cfg0.win 2).blk t).view.emb (ix4 u cc h l))
      + tarr m c (ix2 ⟨edgeDist ((((cfg0.win 2).blk t).view.emb (ix4 u cc h l)) 2).val
            ((((cfg0.win 2).blk t).view.emb (ix4 u cc h l)) 3).val, dist_lt _ _ ((((cfg0.win 2).blk t).view.emb (ix4 u cc h l)) 2).isLt⟩
          ((((cfg0.win 2).blk t).view.emb (ix4 u cc h l)) 1))
  have hx : ((cfg0.win 0).blk t).view.emb (ix4 u cc h l) = ((cfg0.win 2).blk t).view.emb (ix4 u cc h l) := by
    funext a; apply Fin.ext
    match a with
    | ⟨0, _⟩ => show win0_0.index t (0 : Fin 4) * 1 + 1 * u.val = win0_2.index t (0 : Fin 4) * 1 + 1 * u.val; omega
    | ⟨1, _⟩ => show win0_0.index t (1 : Fin 4) * 128 + 1 * cc.val = win0_2.index t (1 : Fin 4) * 128 + 1 * cc.val; omega
    | ⟨2, _⟩ => show win0_0.index t (2 : Fin 4) * 8 + 1 * h.val = win0_2.index t (2 : Fin 4) * 8 + 1 * h.val; omega
    | ⟨3, _⟩ => show win0_0.index t (3 : Fin 4) * 512 + 1 * l.val = win0_2.index t (3 : Fin 4) * 512 + 1 * l.val; omega
  have ht : ((cfg0.win 1).blk t).view.emb
        (ix2 ⟨edgeDist h.val (l.val + (grid0.coords t 2).val * 512), dist_lt _ _ h.isLt⟩ cc)
      = ix2 ⟨edgeDist ((((cfg0.win 2).blk t).view.emb (ix4 u cc h l)) 2).val
            ((((cfg0.win 2).blk t).view.emb (ix4 u cc h l)) 3).val, dist_lt _ _ ((((cfg0.win 2).blk t).view.emb (ix4 u cc h l)) 2).isLt⟩
          ((((cfg0.win 2).blk t).view.emb (ix4 u cc h l)) 1) := by
    funext a; apply Fin.ext
    match a with
    | ⟨0, _⟩ =>
      show win0_1.index t (0 : Fin 2) * 4 + 1 * edgeDist h.val (l.val + (grid0.coords t 2).val * 512)
        = edgeDist (win0_2.index t (2 : Fin 4) * 8 + 1 * h.val) (win0_2.index t (3 : Fin 4) * 512 + 1 * l.val)
      rw [e4, e6, e7]
      simp only [Nat.zero_mul, Nat.zero_add, Nat.one_mul]
      congr 1
      omega
    | ⟨1, _⟩ =>
      show win0_1.index t (1 : Fin 2) * 128 + 1 * cc.val = win0_2.index t (1 : Fin 4) * 128 + 1 * cc.val
      omega
  rw [hx, ht]
  rfl

/-- An index of the array is in point t's block iff each coordinate is in the block's range on its axis. -/
theorem mem_blk (t : Fin cfg0.N) (i : S8x768x8x2048.Idx) :
    i ∈ ((cfg0.win 2).blk t).view.set ↔ ∀ a : Fin 4, win0_2.index t a * S1x128x8x512.size a ≤ (i a).val
      ∧ (i a).val < win0_2.index t a * S1x128x8x512.size a + S1x128x8x512.size a := by
  show i ∈ ((View.whole main_v0).slice (win0_2.rect t)).set ↔ _
  rw [View.set_slice_whole, Rect.mem_set_unit]
  exact Iff.rfl

/-- The blocks tile the array: index (b, c, i, j) is in the block of the point (b, c / 128, j / 512). -/
theorem cover (i : S8x768x8x2048.Idx) :
    ∃ t : Fin cfg0.N, (cfg0.win 2).flush t = true ∧ i ∈ ((cfg0.win 2).blk t).view.set := by
  have hi0 : (i 0).val < 8 := (i 0).isLt
  have hi1 : (i 1).val < 768 := (i 1).isLt
  have hi2 : (i 2).val < 8 := (i 2).isLt
  have hi3 : (i 3).val < 2048 := (i 3).isLt
  obtain ⟨t, ht⟩ := idx_onto ⟨(i 0).val, hi0⟩ ⟨(i 1).val / 128, by omega⟩ ⟨(i 3).val / 512, by omega⟩
  have q0 : win0_2.index t (0 : Fin 4) = (i 0).val := congrFun ht 0
  have q1 : win0_2.index t (1 : Fin 4) = (i 1).val / 128 := congrFun ht 1
  have q2 : win0_2.index t (2 : Fin 4) = 0 := congrFun ht 2
  have q3 : win0_2.index t (3 : Fin 4) = (i 3).val / 512 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 128 ≤ (i 1).val ∧ (i 1).val < win0_2.index t (1 : Fin 4) * 128 + 128; omega
  | ⟨2, _⟩ => show win0_2.index t (2 : Fin 4) * 8 ≤ (i 2).val ∧ (i 2).val < win0_2.index t (2 : Fin 4) * 8 + 8; omega
  | ⟨3, _⟩ => show win0_2.index t (3 : Fin 4) * 512 ≤ (i 3).val ∧ (i 3).val < win0_2.index t (3 : Fin 4) * 512 + 512; omega

/-- THE RESULT ARRAY after the run is G of the argument arrays. -/
theorem final (c : Dev nD) :
    (dats m 0 c).arrAt 2 cfg0.N
      = G (m ((c : Thread nD τ).loc main_arg0)) (m ((c : Thread nD τ).loc main_arg1)) :=
  (dats m 0 c).arrAt_eq_of_cover 2 (G (xarr m c) (tarr m c)) (fun t _ => flushed_eq m c t) cover

/-- The kernel's run: the result array ends at G of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Blocks

end
-- ==== Proof.LibRowGather3.lean ====
/-
  A row gather whose start indices form a rectangle, read at an index.

  What `table[idx]` lowers to for a table [N, C] and an integer array idx of shape [A, B]: a gather with the start
  indices laid out as [A, B, 1], offset axes [2], collapsed slice axes [0], start index map [0], the index vector on
  axis 2 and slice sizes [1, C]; the result has shape [A, B, C].  Result element (a, b, c) is the table's element in
  column c of the row idx[a, b, 0], that word read as a signed integer and clamped into [0, N - 1], as the gather
  clamps every start index.  Generic in N, C, A, B and in the index width.
-/
import Idealize.ShloMosaic.Lib.ValueIdx

noncomputable section

namespace Cert.LibRowGather3

open Idealize.ShloMosaic Idealize.ShloMosaic.ValueIdx

variable {α : Type}

/-- Those dimension numbers for a table [N, C], start indices [A, B, 1] and a result [A, B, C]; their conditions `wf`
    are decided on a program's literal shapes. -/
abbrev rowDims (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

variable {N C A B w : Nat}
  (wf : GatherDims.WF ⟨2, ![N, C]⟩ ⟨3, ![A, B, 1]⟩ ⟨3, ![A, B, C]⟩ [2] [0] [] [0] [] 2 ![1, C])

/-- On the table's row axis the operand index of result element (a, b, c) is the start index idx[a, b, 0], read
    signed and clamped into [0, N - 1]: the axis is collapsed, so no offset is added, and nothing is batched. -/
theorem operandIdx_row (idx : IVec ⟨3, ![A, B, 1]⟩ w) (a : Fin A) (b : Fin B) (c : Fin C) :
    ((rowDims N C A B wf).operandIdx (ix3 a b c) idx (0 : Fin 2)).val
      = min (idx (ix3 a b (0 : Fin 1))).toInt.toNat (N - 1) := by
  show (rowDims N C A B wf).start (ix3 a b c) idx 0 + (rowDims N C A B wf).batchCoord (ix3 a b c) 0
      + (rowDims N C A B wf).offCoord (ix3 a b c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C A B wf).startIndexMap from List.mem_singleton.mpr rfl)]
  have hsi : (rowDims N C A B wf).siIdx (ix3 a b c) ⟨List.idxOf (0 : Fin 2) (rowDims N C A B wf).startIndexMap,
      List.idxOf_lt_length_iff.2 (List.mem_singleton.mpr rfl)⟩ = ix3 a b (0 : Fin 1) := by
    funext q; refine Fin.ext ?_
    match q with
    | ⟨0, _⟩ => rfl
    | ⟨1, _⟩ => rfl
    | ⟨2, _⟩ => rfl
  rw [hsi]
  rfl

/-- On the table's column axis it is the result's own column c: no start index names that axis, and it is the one
    operand axis that is kept, read by the result's one offset axis. -/
theorem operandIdx_col (idx : IVec ⟨3, ![A, B, 1]⟩ w) (a : Fin A) (b : Fin B) (c : Fin C) :
    ((rowDims N C A B wf).operandIdx (ix3 a b c) idx (1 : Fin 2)).val = c.val := by
  show (rowDims N C A B wf).start (ix3 a b c) idx 1 + (rowDims N C A B wf).batchCoord (ix3 a b c) 1
      + (rowDims N C A B wf).offCoord (ix3 a b c) 1 = _
  rw [GatherDims.batchCoord_eq_zero _ _ _ List.not_mem_nil]
  have hs : (rowDims N C A B wf).start (ix3 a b c) idx 1 = 0 := by
    unfold GatherDims.start
    rw [dif_neg (show (1 : Fin 2) ∉ ([0] : List (Fin 2)) from by decide)]
  have hk : (1 : Fin 2) ∈ (rowDims N C A B wf).sKept := by
    rw [GatherDims.mem_sKept]; exact ⟨show (1 : Fin 2) ∉ ([0] : List (Fin 2)) from by decide, List.not_mem_nil⟩
  rw [hs]
  unfold GatherDims.offCoord
  rw [dif_pos hk]
  simp only [Nat.zero_add, Nat.add_zero]
  rfl

/-- THE GATHER READ AT (a, b, c): the table at the row idx[a, b, 0], read signed and clamped into [0, N - 1], and at
    column c. -/
theorem gather_rows_apply (hN : 0 < N) (x : (⟨2, ![N, C]⟩ : Shape).Idx → α) (idx : IVec ⟨3, ![A, B, 1]⟩ w)
    (a : Fin A) (b : Fin B) (c : Fin C) :
    Host.gather (rowDims N C A B wf) x idx (ix3 a b c)
      = x (ix2 ⟨min (idx (ix3 a b (0 : Fin 1))).toInt.toNat (N - 1), by omega⟩ c) := by
  unfold Host.gather
  congr 1
  funext e
  refine Fin.ext ?_
  match e with
  | ⟨0, _⟩ => exact operandIdx_row wf idx a b c
  | ⟨1, _⟩ => exact operandIdx_col wf idx a b c

end Cert.LibRowGather3

end
-- ==== Proof.ReferenceValue.lean ====
/-
  The reference's result, index by index, is the function G of EdgeDistance.

  The reference builds the distance image on 32-bit words (two iotas laid out over the 8 × 2048 pixels, their signed
  minima), wraps a negative index by adding 4 (nothing to wrap: the distance is at least 0), gathers the table's rows at
  that image (a start index in [0, 3] is neither negative nor past the last row, so the gather's clamp leaves it), moves
  the channel axis in front, lays the result over the batch axis and adds it to x.
-/
import proofs.«113781_j45724221833316_1_alg».proof.Proof.Gen.ReferenceIdeal.Read
import proofs.«113781_j45724221833316_1_alg».proof.Proof.EdgeDistance
import proofs.«113781_j45724221833316_1_alg».proof.Proof.LibRowGather3
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.ValueIdx
open Cert.EdgeDistance

/-! ## A small non-negative index word -/

/-- A word in [0, 3] is not negative, so the wrap of negative indices leaves it. -/
theorem wrap_small (d : ℕ) (hd : d < 4) :
    Scalar.select (IntOp.cmpi .slt (BitVec.ofNat 32 d) 0#32) (IntOp.addi (BitVec.ofNat 32 d) 4#32) (BitVec.ofNat 32 d)
      = BitVec.ofNat 32 d := by
  unfold Scalar.select
  rw [if_neg]
  intro hc
  have h := (StableHlo.Predicate.slt_iff_toNat (a := BitVec.ofNat 32 d) (b := 0#32)
    (by simp only [BitVec.toNat_ofNat]; omega) (by decide)).mp hc
  simp at h

/-- Read signed and clamped into [0, 3], it is itself. -/
theorem clamp_small (d : ℕ) (hd : d < 4) : min (BitVec.ofNat 32 d).toInt.toNat (4 - 1) = d := by
  rw [StableHlo.Predicate.toInt_ofNat_small d (by omega)]
  simp only [Int.toNat_natCast]
  omega

/-! ## The distance image -/

/-- The reference's distance image at pixel (i, j) is the word of the distance. -/
theorem dist_image (i : Fin 8) (j : Fin 2048) :
    val_main_v14 (F := Ideal) (ix2 i j) = BitVec.ofNat 32 (edgeDist i.val j.val) := by
  simp only [val_main_v14_apply, val_main_v6_apply, val_main_v13_apply, val_main_v4_apply, val_main_v5_apply,
    val_main_v11_apply, val_main_v12_apply, val_main_v8_apply, val_main_v10_apply, val_main_v1_apply, val_main_v3_apply,
    val_main_v7_apply, val_main_v9_apply, val_main_v0_apply, val_main_v2_apply, val_main_c_apply, val_main_c_0_apply]
  exact distWord_ofNat i.val j.val i.isLt j.isLt

/-- The start indices handed to the gather, at (i, j, 0): still the word of the distance. -/
theorem start_index (i : Fin 8) (j : Fin 2048) :
    val_main_v20 (F := Ideal) (ix3 i j (0 : Fin 1)) = BitVec.ofNat 32 (edgeDist i.val j.val) := by
  rw [val_main_v20_apply, val_main_v19_apply, val_main_v16_apply, val_main_v18_apply, val_main_v15_apply,
    val_main_v17_apply, val_main_c_1_apply, val_main_c_2_apply]
  have e : idx_main_v20 (ix3 i j (0 : Fin 1)) = ix2 i j := by
    funext a; match a with
    | ⟨0, _⟩ => rfl
    | ⟨1, _⟩ => rfl
  rw [e, dist_image]
  exact wrap_small _ (dist_lt _ _ i.isLt)

/-! ## The result -/

/-- The reference's result is x[b, c, i, j] plus the table's entry at row edgeDist i j and column c. -/
theorem result_eq (x0 : FVec Ideal S8x768x8x2048 .f32) (x1 : FVec Ideal S4x768 .f32) :
    val_main_v25 (F := Ideal) x0 x1 = G x0 x1 := by
  funext y
  rw [val_main_v25_apply, val_main_v24_apply, val_main_v23_apply, val_main_v22_apply]
  have e : idx_main_v22 (idx_main_v23 (idx_main_v24 y)) = ix3 (y 2) (y 3) (y 1) := by
    funext a; match a with
    | ⟨0, _⟩ => rfl
    | ⟨1, _⟩ => rfl
    | ⟨2, _⟩ => rfl
  rw [e]
  unfold val_main_v21
  have g := Cert.LibRowGather3.gather_rows_apply (N := 4) (C := 768) (A := 8) (B := 2048)
    Facts₀.gather_S4x768_S8x2048x1_S8x2048x768_2_0_n_n_0_2_1768_wf (by decide) x1 (val_main_v20 (F := Ideal)) (y 2) (y 3) (y 1)
  refine (congrArg (fun v => FloatOps.addf (x0 y) v) g).trans ?_
  show x0 y + x1 _ = x0 y + x1 _
  refine congrArg (fun r : Fin 4 => x0 y + x1 (ix2 r (y 1))) (Fin.ext ?_)
  show min (val_main_v20 (F := Ideal) (ix3 (y 2) (y 3) (0 : Fin 1))).toInt.toNat (4 - 1) = edgeDist (y 2).val (y 3).val
  exact (congrArg (fun w : BitVec 32 => min w.toInt.toNat (4 - 1)) (start_index (y 2) (y 3))).trans
    (clamp_small _ (dist_lt _ _ (y 2).isLt))

end Cert.ReferenceIdeal.RefValue

end
-- ==== Proof.lean ====
/-
  Each of 8 × 768 images of 8 × 2048 pixels gets, added to every pixel, an entry of a 4 × 768 table: the entry in the
  column of the image's channel and in the row given by the pixel's distance to the nearest edge of the image,
      edgeDist i j = min (min i j) (min (7 - i) (2047 - j)),
  which is one of 0, 1, 2, 3 because min i (7 - i) ≤ 3 (Proof/EdgeDistance.lean).

  The reference computes the distance image on 32-bit words and gathers the table's rows at it; the index it hands to the
  gather is in [0, 3], so neither the wrap of negative indices nor the gather's clamp changes it
  (Proof/ReferenceValue.lean, over Proof/LibRowGather3.lean).

  The kernel walks the array in blocks of 1 × 128 × 8 × 512, recomputes the distance of each pixel of the block from the
  block's column offset, and instead of a gather adds the four products  row k · [distance = k]  to a zero accumulator.
  On the extended reals a product with 0 is 0 and a product with 1 is the factor, whatever the factor, so exactly the
  row at the distance survives (Proof/KernelPayload.lean, Proof/KernelValue.lean); no finiteness of the inputs is used.
  The blocks tile the array, so the kernel's result array is the same function of the two arguments as the reference's.

  The idealization rewrote no operation of the kernel, so there is nothing to preserve.
-/
import proofs.«113781_j45724221833316_1_alg».proof.Defs
import proofs.«113781_j45724221833316_1_alg».proof.Proof.Gen.Kernel
import proofs.«113781_j45724221833316_1_alg».proof.Proof.Gen.Kernel.Skeleton
import proofs.«113781_j45724221833316_1_alg».proof.Proof.Gen.Kernel.Launch
import proofs.«113781_j45724221833316_1_alg».proof.Proof.Gen.Kernel.Points
import proofs.«113781_j45724221833316_1_alg».proof.Proof.FrameKernel
import proofs.«113781_j45724221833316_1_alg».proof.Proof.Gen.KernelIdeal
import proofs.«113781_j45724221833316_1_alg».proof.Proof.Gen.KernelIdeal.Skeleton
import proofs.«113781_j45724221833316_1_alg».proof.Proof.Gen.KernelIdeal.Launch
import proofs.«113781_j45724221833316_1_alg».proof.Proof.Gen.KernelIdeal.Points
import proofs.«113781_j45724221833316_1_alg».proof.Proof.FrameKernelIdeal
import proofs.«113781_j45724221833316_1_alg».proof.Proof.Gen.ReferenceIdeal
import proofs.«113781_j45724221833316_1_alg».proof.Proof.Gen.ReferenceIdeal.Run
import proofs.«113781_j45724221833316_1_alg».proof.Proof.Gen.ReferenceIdeal.Read
import proofs.«113781_j45724221833316_1_alg».proof.Proof.Gen.Pre_finite_inputs
import proofs.«113781_j45724221833316_1_alg».proof.Proof.KernelValue
import proofs.«113781_j45724221833316_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel on words runs to the end without a fault and leaves its arguments as they were. -/
theorem frame_kernel : Cert.frame_Kernel := fun m ρ _ => Cert.Kernel.GenP.frame m ρ

/-- So does the kernel on the extended reals. -/
theorem frame_kernelIdeal : Cert.frame_KernelIdeal := fun m ρ _ => Cert.KernelIdeal.GenP.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories that agree on x and on the table, both programs end with x plus the table's entry at the row of the
    pixel's distance to the nearest edge and the channel's column. -/
theorem algebraic : Cert.algebraic_KernelIdeal_ReferenceIdeal := by
  intro m ρ m' ρ' _ hagree
  refine ⟨fun c => Cert.EdgeDistance.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
